-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x4 : Shape := ⟨3, ![128, 4096, 4]⟩
abbrev S_ : Shape := ⟨0, ![]⟩

class Facts : Prop where
  bcast_S_S128x4096x4 : S_.BroadcastsInDim S128x4096x4 (![] : Fin 0 → Fin S128x4096x4.rank)
  reducesTo_S128x4096x4_S_d0_1_2 : S128x4096x4.ReducesTo [0, 1, 2] S_
  h_S_ : 0 < S_.numel

variable [Facts]

def fn {F : FTy → Type} [FloatOps F] (main_arg0 : FVec F S128x4096x4 .f32) : IVec S_ 1 :=
  let main_v0 : FVec F S128x4096x4 .f32 := Host.absf main_arg0
  let main_cst : FVec F S_ .f32 := constant S_ .f32 0x7F800000#32
  let main_v1 : FVec F S128x4096x4 .f32 := broadcastInDim S128x4096x4 ![] bcast_S_S128x4096x4 main_cst
  let main_v2 : IVec S128x4096x4 1 := cmpf .olt main_v0 main_v1
  let main_c : IVec S_ 1 := constantI S_ 1 1#1
  let main_v3 : IVec S_ 1 := (fun x v => Host.reduce IntOp.andi x v reducesTo_S128x4096x4_S_d0_1_2 h_S_) main_v2 main_c
  main_v3
-- ==== Kernel.lean ====
abbrev S128x4096x4 : Shape := ⟨3, ![128, 4096, 4]⟩
abbrev S128x4x4096 : Shape := ⟨3, ![128, 4, 4096]⟩
abbrev S_ : Shape := ⟨0, ![]⟩
abbrev S128x4x4127 : Shape := ⟨3, ![128, 4, 4127]⟩
abbrev S128x4065x128 : Shape := ⟨3, ![128, 4065, 128]⟩
abbrev S64x4x4127 : Shape := ⟨3, ![64, 4, 4127]⟩
abbrev S64x128x128 : Shape := ⟨3, ![64, 128, 128]⟩
abbrev S64x4x159 : Shape := ⟨3, ![64, 4, 159]⟩
abbrev S64x1x128 : Shape := ⟨3, ![64, 1, 128]⟩
abbrev S64x128 : Shape := ⟨2, ![64, 128]⟩
abbrev S64x128x1 : Shape := ⟨3, ![64, 128, 1]⟩
abbrev S64x128x4 : Shape := ⟨3, ![64, 128, 4]⟩
abbrev S128x4065x32x4 : Shape := ⟨4, ![128, 4065, 32, 4]⟩

abbrev nBuf : Space → Nat
  | .hbm => 7
  | .vmem => 4
  | .smem => 0
  | _ => 0

abbrev bufTy : (tb : Table) → Fin (tcTables nBuf tb) → BufTy
  | .hbm, ⟨0, _⟩ => ⟨S128x4096x4, .f32⟩
  | .hbm, ⟨1, _⟩ => ⟨S128x4x4096, .f32⟩
  | .hbm, ⟨2, _⟩ => ⟨S_, .i32⟩
  | .hbm, ⟨3, _⟩ => ⟨S_, .f32⟩
  | .hbm, ⟨4, _⟩ => ⟨S128x4x4127, .f32⟩
  | .hbm, ⟨5, _⟩ => ⟨S128x4065x128, .f32⟩
  | .hbm, ⟨6, _⟩ => ⟨S128x4065x32x4, .f32⟩
  | .local _ .vmem, ⟨0, _⟩ => ⟨S64x4x4127, .f32⟩
  | .local _ .vmem, ⟨1, _⟩ => ⟨S64x4x4127, .f32⟩
  | .local _ .vmem, ⟨2, _⟩ => ⟨S64x128x128, .f32⟩
  | .local _ .vmem, ⟨3, _⟩ => ⟨S64x128x128, .f32⟩
  | _, _ => ⟨S128x4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 3 → Nat :=
  let c0 : Index := 0#32
  let c0_0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  ![0, 0, v2.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x4x4127 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  transposes_S128x4096x4_S128x4x4096_0_2_1 : S128x4096x4.Transposes [0, 2, 1] S128x4x4096
  pads_S128x4x4096_S128x4x4127_000_000_0310 : S128x4x4096.Pads (![0, 0, 0] : Fin 3 → Nat) ![0, 0, 31] ![0, 0, 0] S128x4x4127
  h_S_ : 0 < S_.numel
  h_S64x4x159 : 0 < S64x4x159.numel
  shapeCasts_S64x4x159_S64x4x159 : S64x4x159.ShapeCasts S64x4x159
  slices_S64x4x159_o0_0_0_S64x1x128 : S64x4x159.Slices ![0, 0, 0] S64x1x128
  shapeCasts_S64x1x128_S64x128 : S64x1x128.ShapeCasts S64x128
  slices_S64x4x159_o0_1_0_S64x1x128 : S64x4x159.Slices ![0, 1, 0] S64x1x128
  slices_S64x4x159_o0_2_0_S64x1x128 : S64x4x159.Slices ![0, 2, 0] S64x1x128
  slices_S64x4x159_o0_3_0_S64x1x128 : S64x4x159.Slices ![0, 3, 0] S64x1x128
  shapeCasts_S64x128_S64x128x1 : S64x128.ShapeCasts S64x128x1
  concatenates_S64x128x1_S64x128x1_S64x128x1_S64x128x1_S64x128x4_d2 : Shape.Concatenates [S64x128x1, S64x128x1, S64x128x1, S64x128x1] S64x128x4 2
  inb_S64x128x128_S64x128x4_0_0_0 : ∀ a, (![0, 0, 0] : Fin 3 → Nat) a + S64x128x4.size a ≤ S64x128x128.size a
  h_S64x128x4 : 0 < S64x128x4.numel
  slices_S64x4x159_o0_0_1_S64x1x128 : S64x4x159.Slices ![0, 0, 1] S64x1x128
  slices_S64x4x159_o0_1_1_S64x1x128 : S64x4x159.Slices ![0, 1, 1] S64x1x128
  slices_S64x4x159_o0_2_1_S64x1x128 : S64x4x159.Slices ![0, 2, 1] S64x1x128
  slices_S64x4x159_o0_3_1_S64x1x128 : S64x4x159.Slices ![0, 3, 1] S64x1x128
  inb_S64x128x128_S64x128x4_0_0_4 : ∀ a, (![0, 0, 4] : Fin 3 → Nat) a + S64x128x4.size a ≤ S64x128x128.size a
  slices_S64x4x159_o0_0_2_S64x1x128 : S64x4x159.Slices ![0, 0, 2] S64x1x128
  slices_S64x4x159_o0_1_2_S64x1x128 : S64x4x159.Slices ![0, 1, 2] S64x1x128
  slices_S64x4x159_o0_2_2_S64x1x128 : S64x4x159.Slices ![0, 2, 2] S64x1x128
  slices_S64x4x159_o0_3_2_S64x1x128 : S64x4x159.Slices ![0, 3, 2] S64x1x128
  inb_S64x128x128_S64x128x4_0_0_8 : ∀ a, (![0, 0, 8] : Fin 3 → Nat) a + S64x128x4.size a ≤ S64x128x128.size a
  slices_S64x4x159_o0_0_3_S64x1x128 : S64x4x159.Slices ![0, 0, 3] S64x1x128
  slices_S64x4x159_o0_1_3_S64x1x128 : S64x4x159.Slices ![0, 1, 3] S64x1x128
  slices_S64x4x159_o0_2_3_S64x1x128 : S64x4x159.Slices ![0, 2, 3] S64x1x128
  slices_S64x4x159_o0_3_3_S64x1x128 : S64x4x159.Slices ![0, 3, 3] S64x1x128
  inb_S64x128x128_S64x128x4_0_0_12 : ∀ a, (![0, 0, 12] : Fin 3 → Nat) a + S64x128x4.size a ≤ S64x128x128.size a
  slices_S64x4x159_o0_0_4_S64x1x128 : S64x4x159.Slices ![0, 0, 4] S64x1x128
  slices_S64x4x159_o0_1_4_S64x1x128 : S64x4x159.Slices ![0, 1, 4] S64x1x128
  slices_S64x4x159_o0_2_4_S64x1x128 : S64x4x159.Slices ![0, 2, 4] S64x1x128
  slices_S64x4x159_o0_3_4_S64x1x128 : S64x4x159.Slices ![0, 3, 4] S64x1x128
  inb_S64x128x128_S64x128x4_0_0_16 : ∀ a, (![0, 0, 16] : Fin 3 → Nat) a + S64x128x4.size a ≤ S64x128x128.size a
  slices_S64x4x159_o0_0_5_S64x1x128 : S64x4x159.Slices ![0, 0, 5] S64x1x128
  slices_S64x4x159_o0_1_5_S64x1x128 : S64x4x159.Slices ![0, 1, 5] S64x1x128
  slices_S64x4x159_o0_2_5_S64x1x128 : S64x4x159.Slices ![0, 2, 5] S64x1x128
  slices_S64x4x159_o0_3_5_S64x1x128 : S64x4x159.Slices ![0, 3, 5] S64x1x128
  inb_S64x128x128_S64x128x4_0_0_20 : ∀ a, (![0, 0, 20] : Fin 3 → Nat) a + S64x128x4.size a ≤ S64x128x128.size a
  slices_S64x4x159_o0_0_6_S64x1x128 : S64x4x159.Slices ![0, 0, 6] S64x1x128
  slices_S64x4x159_o0_1_6_S64x1x128 : S64x4x159.Slices ![0, 1, 6] S64x1x128
  slices_S64x4x159_o0_2_6_S64x1x128 : S64x4x159.Slices ![0, 2, 6] S64x1x128
  slices_S64x4x159_o0_3_6_S64x1x128 : S64x4x159.Slices ![0, 3, 6] S64x1x128
  inb_S64x128x128_S64x128x4_0_0_24 : ∀ a, (![0, 0, 24] : Fin 3 → Nat) a + S64x128x4.size a ≤ S64x128x128.size a
  slices_S64x4x159_o0_0_7_S64x1x128 : S64x4x159.Slices ![0, 0, 7] S64x1x128
  slices_S64x4x159_o0_1_7_S64x1x128 : S64x4x159.Slices ![0, 1, 7] S64x1x128
  slices_S64x4x159_o0_2_7_S64x1x128 : S64x4x159.Slices ![0, 2, 7] S64x1x128
  slices_S64x4x159_o0_3_7_S64x1x128 : S64x4x159.Slices ![0, 3, 7] S64x1x128
  inb_S64x128x128_S64x128x4_0_0_28 : ∀ a, (![0, 0, 28] : Fin 3 → Nat) a + S64x128x4.size a ≤ S64x128x128.size a
  slices_S64x4x159_o0_0_8_S64x1x128 : S64x4x159.Slices ![0, 0, 8] S64x1x128
  slices_S64x4x159_o0_1_8_S64x1x128 : S64x4x159.Slices ![0, 1, 8] S64x1x128
  slices_S64x4x159_o0_2_8_S64x1x128 : S64x4x159.Slices ![0, 2, 8] S64x1x128
  slices_S64x4x159_o0_3_8_S64x1x128 : S64x4x159.Slices ![0, 3, 8] S64x1x128
  inb_S64x128x128_S64x128x4_0_0_32 : ∀ a, (![0, 0, 32] : Fin 3 → Nat) a + S64x128x4.size a ≤ S64x128x128.size a
  slices_S64x4x159_o0_0_9_S64x1x128 : S64x4x159.Slices ![0, 0, 9] S64x1x128
  slices_S64x4x159_o0_1_9_S64x1x128 : S64x4x159.Slices ![0, 1, 9] S64x1x128
  slices_S64x4x159_o0_2_9_S64x1x128 : S64x4x159.Slices ![0, 2, 9] S64x1x128
  slices_S64x4x159_o0_3_9_S64x1x128 : S64x4x159.Slices ![0, 3, 9] S64x1x128
  inb_S64x128x128_S64x128x4_0_0_36 : ∀ a, (![0, 0, 36] : Fin 3 → Nat) a + S64x128x4.size a ≤ S64x128x128.size a
  slices_S64x4x159_o0_0_10_S64x1x128 : S64x4x159.Slices ![0, 0, 10] S64x1x128
  slices_S64x4x159_o0_1_10_S64x1x128 : S64x4x159.Slices ![0, 1, 10] S64x1x128
  slices_S64x4x159_o0_2_10_S64x1x128 : S64x4x159.Slices ![0, 2, 10] S64x1x128
  slices_S64x4x159_o0_3_10_S64x1x128 : S64x4x159.Slices ![0, 3, 10] S64x1x128
  inb_S64x128x128_S64x128x4_0_0_40 : ∀ a, (![0, 0, 40] : Fin 3 → Nat) a + S64x128x4.size a ≤ S64x128x128.size a
  slices_S64x4x159_o0_0_11_S64x1x128 : S64x4x159.Slices ![0, 0, 11] S64x1x128
  slices_S64x4x159_o0_1_11_S64x1x128 : S64x4x159.Slices ![0, 1, 11] S64x1x128
  slices_S64x4x159_o0_2_11_S64x1x128 : S64x4x159.Slices ![0, 2, 11] S64x1x128
  slices_S64x4x159_o0_3_11_S64x1x128 : S64x4x159.Slices ![0, 3, 11] S64x1x128
  inb_S64x128x128_S64x128x4_0_0_44 : ∀ a, (![0, 0, 44] : Fin 3 → Nat) a + S64x128x4.size a ≤ S64x128x128.size a
  slices_S64x4x159_o0_0_12_S64x1x128 : S64x4x159.Slices ![0, 0, 12] S64x1x128
  slices_S64x4x159_o0_1_12_S64x1x128 : S64x4x159.Slices ![0, 1, 12] S64x1x128
  slices_S64x4x159_o0_2_12_S64x1x128 : S64x4x159.Slices ![0, 2, 12] S64x1x128
  slices_S64x4x159_o0_3_12_S64x1x128 : S64x4x159.Slices ![0, 3, 12] S64x1x128
  inb_S64x128x128_S64x128x4_0_0_48 : ∀ a, (![0, 0, 48] : Fin 3 → Nat) a + S64x128x4.size a ≤ S64x128x128.size a
  slices_S64x4x159_o0_0_13_S64x1x128 : S64x4x159.Slices ![0, 0, 13] S64x1x128
  slices_S64x4x159_o0_1_13_S64x1x128 : S64x4x159.Slices ![0, 1, 13] S64x1x128
  slices_S64x4x159_o0_2_13_S64x1x128 : S64x4x159.Slices ![0, 2, 13] S64x1x128
  slices_S64x4x159_o0_3_13_S64x1x128 : S64x4x159.Slices ![0, 3, 13] S64x1x128
  inb_S64x128x128_S64x128x4_0_0_52 : ∀ a, (![0, 0, 52] : Fin 3 → Nat) a + S64x128x4.size a ≤ S64x128x128.size a
  slices_S64x4x159_o0_0_14_S64x1x128 : S64x4x159.Slices ![0, 0, 14] S64x1x128
  slices_S64x4x159_o0_1_14_S64x1x128 : S64x4x159.Slices ![0, 1, 14] S64x1x128
  slices_S64x4x159_o0_2_14_S64x1x128 : S64x4x159.Slices ![0, 2, 14] S64x1x128
  slices_S64x4x159_o0_3_14_S64x1x128 : S64x4x159.Slices ![0, 3, 14] S64x1x128
  inb_S64x128x128_S64x128x4_0_0_56 : ∀ a, (![0, 0, 56] : Fin 3 → Nat) a + S64x128x4.size a ≤ S64x128x128.size a
  slices_S64x4x159_o0_0_15_S64x1x128 : S64x4x159.Slices ![0, 0, 15] S64x1x128
  slices_S64x4x159_o0_1_15_S64x1x128 : S64x4x159.Slices ![0, 1, 15] S64x1x128
  slices_S64x4x159_o0_2_15_S64x1x128 : S64x4x159.Slices ![0, 2, 15] S64x1x128
  slices_S64x4x159_o0_3_15_S64x1x128 : S64x4x159.Slices ![0, 3, 15] S64x1x128
  inb_S64x128x128_S64x128x4_0_0_60 : ∀ a, (![0, 0, 60] : Fin 3 → Nat) a + S64x128x4.size a ≤ S64x128x128.size a
  slices_S64x4x159_o0_0_16_S64x1x128 : S64x4x159.Slices ![0, 0, 16] S64x1x128
  slices_S64x4x159_o0_1_16_S64x1x128 : S64x4x159.Slices ![0, 1, 16] S64x1x128
  slices_S64x4x159_o0_2_16_S64x1x128 : S64x4x159.Slices ![0, 2, 16] S64x1x128
  slices_S64x4x159_o0_3_16_S64x1x128 : S64x4x159.Slices ![0, 3, 16] S64x1x128
  inb_S64x128x128_S64x128x4_0_0_64 : ∀ a, (![0, 0, 64] : Fin 3 → Nat) a + S64x128x4.size a ≤ S64x128x128.size a
  slices_S64x4x159_o0_0_17_S64x1x128 : S64x4x159.Slices ![0, 0, 17] S64x1x128
  slices_S64x4x159_o0_1_17_S64x1x128 : S64x4x159.Slices ![0, 1, 17] S64x1x128
  slices_S64x4x159_o0_2_17_S64x1x128 : S64x4x159.Slices ![0, 2, 17] S64x1x128
  slices_S64x4x159_o0_3_17_S64x1x128 : S64x4x159.Slices ![0, 3, 17] S64x1x128
  inb_S64x128x128_S64x128x4_0_0_68 : ∀ a, (![0, 0, 68] : Fin 3 → Nat) a + S64x128x4.size a ≤ S64x128x128.size a
  slices_S64x4x159_o0_0_18_S64x1x128 : S64x4x159.Slices ![0, 0, 18] S64x1x128
  slices_S64x4x159_o0_1_18_S64x1x128 : S64x4x159.Slices ![0, 1, 18] S64x1x128
  slices_S64x4x159_o0_2_18_S64x1x128 : S64x4x159.Slices ![0, 2, 18] S64x1x128
  slices_S64x4x159_o0_3_18_S64x1x128 : S64x4x159.Slices ![0, 3, 18] S64x1x128
  inb_S64x128x128_S64x128x4_0_0_72 : ∀ a, (![0, 0, 72] : Fin 3 → Nat) a + S64x128x4.size a ≤ S64x128x128.size a
  slices_S64x4x159_o0_0_19_S64x1x128 : S64x4x159.Slices ![0, 0, 19] S64x1x128
  slices_S64x4x159_o0_1_19_S64x1x128 : S64x4x159.Slices ![0, 1, 19] S64x1x128
  slices_S64x4x159_o0_2_19_S64x1x128 : S64x4x159.Slices ![0, 2, 19] S64x1x128
  slices_S64x4x159_o0_3_19_S64x1x128 : S64x4x159.Slices ![0, 3, 19] S64x1x128
  inb_S64x128x128_S64x128x4_0_0_76 : ∀ a, (![0, 0, 76] : Fin 3 → Nat) a + S64x128x4.size a ≤ S64x128x128.size a
  slices_S64x4x159_o0_0_20_S64x1x128 : S64x4x159.Slices ![0, 0, 20] S64x1x128
  slices_S64x4x159_o0_1_20_S64x1x128 : S64x4x159.Slices ![0, 1, 20] S64x1x128
  slices_S64x4x159_o0_2_20_S64x1x128 : S64x4x159.Slices ![0, 2, 20] S64x1x128
  slices_S64x4x159_o0_3_20_S64x1x128 : S64x4x159.Slices ![0, 3, 20] S64x1x128
  inb_S64x128x128_S64x128x4_0_0_80 : ∀ a, (![0, 0, 80] : Fin 3 → Nat) a + S64x128x4.size a ≤ S64x128x128.size a
  slices_S64x4x159_o0_0_21_S64x1x128 : S64x4x159.Slices ![0, 0, 21] S64x1x128
  slices_S64x4x159_o0_1_21_S64x1x128 : S64x4x159.Slices ![0, 1, 21] S64x1x128
  slices_S64x4x159_o0_2_21_S64x1x128 : S64x4x159.Slices ![0, 2, 21] S64x1x128
  slices_S64x4x159_o0_3_21_S64x1x128 : S64x4x159.Slices ![0, 3, 21] S64x1x128
  inb_S64x128x128_S64x128x4_0_0_84 : ∀ a, (![0, 0, 84] : Fin 3 → Nat) a + S64x128x4.size a ≤ S64x128x128.size a
  slices_S64x4x159_o0_0_22_S64x1x128 : S64x4x159.Slices ![0, 0, 22] S64x1x128
  slices_S64x4x159_o0_1_22_S64x1x128 : S64x4x159.Slices ![0, 1, 22] S64x1x128
  slices_S64x4x159_o0_2_22_S64x1x128 : S64x4x159.Slices ![0, 2, 22] S64x1x128
  slices_S64x4x159_o0_3_22_S64x1x128 : S64x4x159.Slices ![0, 3, 22] S64x1x128
  inb_S64x128x128_S64x128x4_0_0_88 : ∀ a, (![0, 0, 88] : Fin 3 → Nat) a + S64x128x4.size a ≤ S64x128x128.size a
  slices_S64x4x159_o0_0_23_S64x1x128 : S64x4x159.Slices ![0, 0, 23] S64x1x128
  slices_S64x4x159_o0_1_23_S64x1x128 : S64x4x159.Slices ![0, 1, 23] S64x1x128
  slices_S64x4x159_o0_2_23_S64x1x128 : S64x4x159.Slices ![0, 2, 23] S64x1x128
  slices_S64x4x159_o0_3_23_S64x1x128 : S64x4x159.Slices ![0, 3, 23] S64x1x128
  inb_S64x128x128_S64x128x4_0_0_92 : ∀ a, (![0, 0, 92] : Fin 3 → Nat) a + S64x128x4.size a ≤ S64x128x128.size a
  slices_S64x4x159_o0_0_24_S64x1x128 : S64x4x159.Slices ![0, 0, 24] S64x1x128
  slices_S64x4x159_o0_1_24_S64x1x128 : S64x4x159.Slices ![0, 1, 24] S64x1x128
  slices_S64x4x159_o0_2_24_S64x1x128 : S64x4x159.Slices ![0, 2, 24] S64x1x128
  slices_S64x4x159_o0_3_24_S64x1x128 : S64x4x159.Slices ![0, 3, 24] S64x1x128
  inb_S64x128x128_S64x128x4_0_0_96 : ∀ a, (![0, 0, 96] : Fin 3 → Nat) a + S64x128x4.size a ≤ S64x128x128.size a
  slices_S64x4x159_o0_0_25_S64x1x128 : S64x4x159.Slices ![0, 0, 25] S64x1x128
  slices_S64x4x159_o0_1_25_S64x1x128 : S64x4x159.Slices ![0, 1, 25] S64x1x128
  slices_S64x4x159_o0_2_25_S64x1x128 : S64x4x159.Slices ![0, 2, 25] S64x1x128
  slices_S64x4x159_o0_3_25_S64x1x128 : S64x4x159.Slices ![0, 3, 25] S64x1x128
  inb_S64x128x128_S64x128x4_0_0_100 : ∀ a, (![0, 0, 100] : Fin 3 → Nat) a + S64x128x4.size a ≤ S64x128x128.size a
  slices_S64x4x159_o0_0_26_S64x1x128 : S64x4x159.Slices ![0, 0, 26] S64x1x128
  slices_S64x4x159_o0_1_26_S64x1x128 : S64x4x159.Slices ![0, 1, 26] S64x1x128
  slices_S64x4x159_o0_2_26_S64x1x128 : S64x4x159.Slices ![0, 2, 26] S64x1x128
  slices_S64x4x159_o0_3_26_S64x1x128 : S64x4x159.Slices ![0, 3, 26] S64x1x128
  inb_S64x128x128_S64x128x4_0_0_104 : ∀ a, (![0, 0, 104] : Fin 3 → Nat) a + S64x128x4.size a ≤ S64x128x128.size a
  slices_S64x4x159_o0_0_27_S64x1x128 : S64x4x159.Slices ![0, 0, 27] S64x1x128
  slices_S64x4x159_o0_1_27_S64x1x128 : S64x4x159.Slices ![0, 1, 27] S64x1x128
  slices_S64x4x159_o0_2_27_S64x1x128 : S64x4x159.Slices ![0, 2, 27] S64x1x128
  slices_S64x4x159_o0_3_27_S64x1x128 : S64x4x159.Slices ![0, 3, 27] S64x1x128
  inb_S64x128x128_S64x128x4_0_0_108 : ∀ a, (![0, 0, 108] : Fin 3 → Nat) a + S64x128x4.size a ≤ S64x128x128.size a
  slices_S64x4x159_o0_0_28_S64x1x128 : S64x4x159.Slices ![0, 0, 28] S64x1x128
  slices_S64x4x159_o0_1_28_S64x1x128 : S64x4x159.Slices ![0, 1, 28] S64x1x128
  slices_S64x4x159_o0_2_28_S64x1x128 : S64x4x159.Slices ![0, 2, 28] S64x1x128
  slices_S64x4x159_o0_3_28_S64x1x128 : S64x4x159.Slices ![0, 3, 28] S64x1x128
  inb_S64x128x128_S64x128x4_0_0_112 : ∀ a, (![0, 0, 112] : Fin 3 → Nat) a + S64x128x4.size a ≤ S64x128x128.size a
  slices_S64x4x159_o0_0_29_S64x1x128 : S64x4x159.Slices ![0, 0, 29] S64x1x128
  slices_S64x4x159_o0_1_29_S64x1x128 : S64x4x159.Slices ![0, 1, 29] S64x1x128
  slices_S64x4x159_o0_2_29_S64x1x128 : S64x4x159.Slices ![0, 2, 29] S64x1x128
  slices_S64x4x159_o0_3_29_S64x1x128 : S64x4x159.Slices ![0, 3, 29] S64x1x128
  inb_S64x128x128_S64x128x4_0_0_116 : ∀ a, (![0, 0, 116] : Fin 3 → Nat) a + S64x128x4.size a ≤ S64x128x128.size a
  slices_S64x4x159_o0_0_30_S64x1x128 : S64x4x159.Slices ![0, 0, 30] S64x1x128
  slices_S64x4x159_o0_1_30_S64x1x128 : S64x4x159.Slices ![0, 1, 30] S64x1x128
  slices_S64x4x159_o0_2_30_S64x1x128 : S64x4x159.Slices ![0, 2, 30] S64x1x128
  slices_S64x4x159_o0_3_30_S64x1x128 : S64x4x159.Slices ![0, 3, 30] S64x1x128
  inb_S64x128x128_S64x128x4_0_0_120 : ∀ a, (![0, 0, 120] : Fin 3 → Nat) a + S64x128x4.size a ≤ S64x128x128.size a
  slices_S64x4x159_o0_0_31_S64x1x128 : S64x4x159.Slices ![0, 0, 31] S64x1x128
  slices_S64x4x159_o0_1_31_S64x1x128 : S64x4x159.Slices ![0, 1, 31] S64x1x128
  slices_S64x4x159_o0_2_31_S64x1x128 : S64x4x159.Slices ![0, 2, 31] S64x1x128
  slices_S64x4x159_o0_3_31_S64x1x128 : S64x4x159.Slices ![0, 3, 31] S64x1x128
  inb_S64x128x128_S64x128x4_0_0_124 : ∀ a, (![0, 0, 124] : Fin 3 → Nat) a + S64x128x4.size a ≤ S64x128x128.size a
  shapeCasts_S128x4065x128_S128x4065x32x4 : S128x4065x128.ShapeCasts S128x4065x32x4
  hrank0 : 0 < grid0.rank
  k0_mult1_dvd : ∀ i : grid0.Coords, 128 ∣ (k0_mult1 i).toNat
  k0_off1_inb : ∀ i : grid0.Coords, ∀ a, (k0_off1 i) a + S64x4x159.size a ≤ S64x4x4127.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4x4127.size a ≤ S128x4x4127.size a
  hwx0_0 : ∀ i : grid0.Coords, EltTy.bits .f32 = 32 ∨ (Rect.block (s := S128x4x4127) S64x4x4127.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x128x128.size a < S128x4065x128.size a
  hwx0_1 : ∀ i : grid0.Coords, EltTy.bits .f32 = 32 ∨ (Rect.unit (s := S128x4065x128) (fun a => cc0_transform_1 i a * S64x128x128.size a) (fun a => (Pipeline.Clip.of (cc0_transform_1 i a) (S64x128x128.size a) (S128x4065x128.size a)).extent (S64x128x128.size a)) fun a => Pipeline.Clip.inb (Pipeline.Clip.ok_of (hstart0_1 i a))).WholeWords (EltTy.packing .f32)
  hwxs0_1 : ∀ i : grid0.Coords, EltTy.bits .f32 = 32 ∨ (Rect.unit (s := S64x128x128) (fun _ => 0) (fun a => (Pipeline.Clip.of (cc0_transform_1 i a) (S64x128x128.size a) (S128x4065x128.size a)).extent (S64x128x128.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpec (Memref.whole main_v1) S64x4x4127.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v2) S64x128x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x4096x4 : Shape := ⟨3, ![128, 4096, 4]⟩
abbrev S4065 : Shape := ⟨1, ![4065]⟩
abbrev S4065x1 : Shape := ⟨2, ![4065, 1]⟩
abbrev S32 : Shape := ⟨1, ![32]⟩
abbrev S1x32 : Shape := ⟨2, ![1, 32]⟩
abbrev S4065x32 : Shape := ⟨2, ![4065, 32]⟩
abbrev S_ : Shape := ⟨0, ![]⟩
abbrev S4065x32x1 : Shape := ⟨3, ![4065, 32, 1]⟩
abbrev S128x4065x32x4 : Shape := ⟨4, ![128, 4065, 32, 4]⟩

abbrev nBuf : Space → Nat
  | .hbm => 17
  | .vmem => 0
  | .smem => 0
  | _ => 0

abbrev bufTy : (tb : Table) → Fin (tcTables nBuf tb) → BufTy
  | .hbm, ⟨0, _⟩ => ⟨S128x4096x4, .f32⟩
  | .hbm, ⟨1, _⟩ => ⟨S4065, .i32⟩
  | .hbm, ⟨2, _⟩ => ⟨S4065x1, .i32⟩
  | .hbm, ⟨3, _⟩ => ⟨S32, .i32⟩
  | .hbm, ⟨4, _⟩ => ⟨S1x32, .i32⟩
  | .hbm, ⟨5, _⟩ => ⟨S4065x32, .i32⟩
  | .hbm, ⟨6, _⟩ => ⟨S4065x32, .i32⟩
  | .hbm, ⟨7, _⟩ => ⟨S4065x32, .i32⟩
  | .hbm, ⟨8, _⟩ => ⟨S_, .i32⟩
  | .hbm, ⟨9, _⟩ => ⟨S4065x32, .i32⟩
  | .hbm, ⟨10, _⟩ => ⟨S4065x32, .i1⟩
  | .hbm, ⟨11, _⟩ => ⟨S_, .i32⟩
  | .hbm, ⟨12, _⟩ => ⟨S4065x32, .i32⟩
  | .hbm, ⟨13, _⟩ => ⟨S4065x32, .i32⟩
  | .hbm, ⟨14, _⟩ => ⟨S4065x32, .i32⟩
  | .hbm, ⟨15, _⟩ => ⟨S4065x32x1, .i32⟩
  | .hbm, ⟨16, _⟩ => ⟨S128x4065x32x4, .f32⟩
  | _, _ => ⟨S128x4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]

class Facts₀ : Prop where
  bcast_S4065_S4065x1_0 : S4065.BroadcastsInDim S4065x1 (![0] : Fin 1 → Fin S4065x1.rank)
  bcast_S32_S1x32_1 : S32.BroadcastsInDim S1x32 (![1] : Fin 1 → Fin S1x32.rank)
  bcast_S4065x1_S4065x32_0_1 : S4065x1.BroadcastsInDim S4065x32 (![0, 1] : Fin 2 → Fin S4065x32.rank)
  bcast_S1x32_S4065x32_0_1 : S1x32.BroadcastsInDim S4065x32 (![0, 1] : Fin 2 → Fin S4065x32.rank)
  bcast_S_S4065x32 : S_.BroadcastsInDim S4065x32 (![] : Fin 0 → Fin S4065x32.rank)
  bcast_S4065x32_S4065x32x1_0_1 : S4065x32.BroadcastsInDim S4065x32x1 (![0, 1] : Fin 2 → Fin S4065x32x1.rank)
  gather_S128x4096x4_S4065x32x1_S128x4065x32x4_03_1_n_n_1_2_12814_wf : GatherDims.WF S128x4096x4 S4065x32x1 S128x4065x32x4 [0, 3] [1] [] [1] [] 2 ![128, 1, 4]

variable [Facts₀]

def gather_S128x4096x4_S4065x32x1_S128x4065x32x4_03_1_n_n_1_2_12814 : GatherDims S128x4096x4 S4065x32x1 S128x4065x32x4 where
  offsetDims := [0, 3]
  collapsedSliceDims := [1]
  operandBatchingDims := []
  startIndicesBatchingDims := []
  startIndexMap := [1]
  indexVectorDim := 2
  sliceSizes := ![128, 1, 4]
  wf := gather_S128x4096x4_S4065x32x1_S128x4065x32x4_03_1_n_n_1_2_12814_wf

class Facts : Prop extends Facts₀ where

variable [Facts]
-- ==== Proof.Spec.lean ====
/-
  Sliding windows along the sequence axis.

  For an array `x` of shape [128, 4096, 4] (batch, position, channel) and a window width of 32, the array of all
  4065 = 4096 − 32 + 1 windows is `windows x [b, w, f, c] = x [b, w + f, c]`: window `w` holds the 32 consecutive
  positions `w, w + 1, …, w + 31`, and `w + f ≤ 4064 + 31 = 4095` is always a position of `x`. Nothing is computed:
  every entry of the result is one entry of `x`, so the statement holds for arbitrary entries, finite or not.
-/
import Idealize.ShloMosaic.Lib.ValueIdx

noncomputable section

namespace Cert.Unfold

open Idealize.ShloMosaic Idealize.ShloMosaic.ValueIdx

/-- The position read by tap `f` of window `w`. -/
def pos (w : Fin 4065) (f : Fin 32) : Fin 4096 := ⟨w.val + f.val, by omega⟩

theorem pos_val (w : Fin 4065) (f : Fin 32) : (pos w f).val = w.val + f.val := rfl

/-- All windows of width 32 of `x` along its middle axis. -/
def windows {α : Type} (x : (⟨3, ![128, 4096, 4]⟩ : Shape).Idx → α) : (⟨4, ![128, 4065, 32, 4]⟩ : Shape).Idx → α :=
  fun j => x (ix3 (n0 := 128) (n1 := 4096) (n2 := 4) (j 0) (pos (j 1) (j 2)) (j 3))

theorem windows_apply {α : Type} (x : (⟨3, ![128, 4096, 4]⟩ : Shape).Idx → α) (b : Fin 128) (w : Fin 4065) (f : Fin 32)
    (c : Fin 4) : windows x (ix4 b w f c) = x (ix3 b (pos w f) c) := rfl

end Cert.Unfold

end
-- ==== Proof.RefValue.lean ====
/-
  The reference program's result is the array of sliding windows of its argument.

  The reference builds the table of positions `idx[w, f] = w + f` as 32-bit words (two iotas, broadcast and added),
  wraps a negative word once by the axis length 4096 (no word is negative here: `w + f ≤ 4095`), and gathers along
  the middle axis: result entry `[b, w, f, c]` is `x[b, p, c]` with `p` the word `idx[w, f]` read as a signed
  integer and clamped into `[0, 4095]` (the clamp is idle for the same reason).
-/
import proofs.«119354_j34222299414942_1_alg».proof.Defs
import proofs.«119354_j34222299414942_1_alg».proof.Proof.Gen.ReferenceIdeal.Run
import proofs.«119354_j34222299414942_1_alg».proof.Proof.Gen.ReferenceIdeal.Read
import proofs.«119354_j34222299414942_1_alg».proof.Proof.Spec
import Idealize.ShloMosaic.Lib.ValueIdx
import Idealize.ShloMosaic.Lib.Pipeline.Value

noncomputable section

namespace Cert.Unfold.Ref

open Idealize.ShloMosaic Idealize.ShloMosaic.ValueIdx
open Cert.ReferenceIdeal Cert.ReferenceIdeal.Gen Cert.ReferenceIdeal.Read

/-- The gather's dimension numbers, under the short name used below. -/
abbrev gd : GatherDims S128x4096x4 S4065x32x1 S128x4065x32x4 :=
  gather_S128x4096x4_S4065x32x1_S128x4065x32x4_03_1_n_n_1_2_12814

/-! ## The words of the position table -/

/-- A word below 2^31 is not negative, so jnp's wrap of a negative index leaves it alone. -/
theorem wrap_idle (n : Nat) (hn : n < 2147483648) :
    Scalar.select (IntOp.cmpi .slt (BitVec.ofNat 32 n) 0#32) (IntOp.addi (BitVec.ofNat 32 n) 4096#32) (BitVec.ofNat 32 n)
      = BitVec.ofNat 32 n := by
  have hs : IntOp.cmpi .slt (BitVec.ofNat 32 n) 0#32 = 0#1 := by
    unfold IntOp.cmpi
    have : (BitVec.ofNat 32 n).slt 0#32 = false := by
      rw [BitVec.slt_zero_eq_msb, BitVec.msb_eq_decide]
      simp only [BitVec.toNat_ofNat, decide_eq_false_iff_not, not_le]
      omega
    simp [this]
  rw [hs, select_zero]

/-- The sum of the two iota words is the word of the sum. -/
theorem addi_ofNat (a b : Nat) : IntOp.addi (BitVec.ofNat 32 a) (BitVec.ofNat 32 b) = BitVec.ofNat 32 (a + b) := by
  unfold IntOp.addi
  exact (BitVec.ofNat_add a b).symm

/-- Entry `[w, f, 0]` of the start indices is the word `w + f`. -/
theorem start_word (w : Fin 4065) (f : Fin 32) :
    val_main_v12 (F := Ideal) (ix3 w f (0 : Fin 1)) = BitVec.ofNat 32 (w.val + f.val) := by
  rw [val_main_v12_apply, val_main_v11_apply, val_main_v8_apply, val_main_v10_apply, val_main_v6_apply,
    val_main_v4_apply, val_main_v5_apply, val_main_v1_apply, val_main_v3_apply, val_main_v0_apply, val_main_v2_apply,
    val_main_v7_apply, val_main_v9_apply, val_main_c_apply, val_main_c_0_apply]
  show Scalar.select (IntOp.cmpi .slt (IntOp.addi (BitVec.ofNat 32 w.val) (BitVec.ofNat 32 f.val)) 0#32)
      (IntOp.addi (IntOp.addi (BitVec.ofNat 32 w.val) (BitVec.ofNat 32 f.val)) 4096#32)
      (IntOp.addi (BitVec.ofNat 32 w.val) (BitVec.ofNat 32 f.val)) = _
  rw [addi_ofNat]
  exact wrap_idle _ (by have := w.isLt; have := f.isLt; omega)

/-- Read as a signed integer, that word is the position `w + f`. -/
theorem start_word_toNat (w : Fin 4065) (f : Fin 32) :
    (BitVec.ofNat 32 (w.val + f.val)).toInt.toNat = w.val + f.val := by
  have hw := w.isLt
  have hf := f.isLt
  have h1 : (BitVec.ofNat 32 (w.val + f.val)).toNat = w.val + f.val := by
    rw [BitVec.toNat_ofNat]; exact Nat.mod_eq_of_lt (by omega)
  rw [BitVec.toInt_eq_toNat_cond, h1, if_pos (by omega)]
  exact Int.toNat_natCast _

/-! ## The gather read at an index -/

/-- Result entry `[b, w, f, c]` of the gather is the operand at `[b, p, c]`, `p` the start index `idx[w, f, 0]` read as a
    signed integer and clamped into `[0, 4095]`: the batch and channel axes are offset axes carried through whole, the
    middle axis is the collapsed one the start index addresses. -/
theorem gather_apply {α : Type} (x : S128x4096x4.Idx → α) (idx : IVec S4065x32x1 32)
    (b : Fin 128) (w : Fin 4065) (f : Fin 32) (c : Fin 4) :
    Host.gather gd x idx (ix4 b w f c)
      = x (ix3 b (⟨min (idx (ix3 w f (0 : Fin 1))).toInt.toNat 4095, by omega⟩ : Fin 4096) c) := by
  unfold Host.gather
  congr 1
  funext a
  refine Fin.ext ?_
  match a with
  | ⟨0, _⟩ =>
    show gd.start (ix4 b w f c) idx 0 + gd.batchCoord (ix4 b w f c) 0 + gd.offCoord (ix4 b w f c) 0 = b.val
    rw [GatherDims.batchCoord_eq_zero _ _ _ List.not_mem_nil]
    have hs : gd.start (ix4 b w f c) idx 0 = 0 := by
      unfold GatherDims.start
      rw [dif_neg (show (0 : Fin 3) ∉ gd.startIndexMap from by decide)]
    have hk : (0 : Fin 3) ∈ gd.sKept :=
      (GatherDims.mem_sKept _ _).mpr ⟨(show (0 : Fin 3) ∉ [(1 : Fin 3)] by decide), List.not_mem_nil⟩
    have ho : gd.offCoord (ix4 b w f c) 0 = b.val := by
      unfold GatherDims.offCoord
      rw [dif_pos hk]
      rfl
    rw [hs, ho]
    omega
  | ⟨1, _⟩ =>
    show gd.start (ix4 b w f c) idx 1 + gd.batchCoord (ix4 b w f c) 1 + gd.offCoord (ix4 b w f c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gd.startIndexMap from List.mem_singleton.mpr rfl)]
    have hsi : gd.siIdx (ix4 b w f c) ⟨List.idxOf (1 : Fin 3) gd.startIndexMap,
        List.idxOf_lt_length_iff.2 (List.mem_singleton.mpr rfl)⟩ = ix3 w f (0 : Fin 1) := by
      funext e; refine Fin.ext ?_
      match e with
      | ⟨0, _⟩ => rfl
      | ⟨1, _⟩ => rfl
      | ⟨2, _⟩ => rfl
    rw [hsi]
    rfl
  | ⟨2, _⟩ =>
    show gd.start (ix4 b w f c) idx 2 + gd.batchCoord (ix4 b w f c) 2 + gd.offCoord (ix4 b w f c) 2 = c.val
    rw [GatherDims.batchCoord_eq_zero _ _ _ List.not_mem_nil]
    have hs : gd.start (ix4 b w f c) idx 2 = 0 := by
      unfold GatherDims.start
      rw [dif_neg (show (2 : Fin 3) ∉ gd.startIndexMap from by decide)]
    have hk : (2 : Fin 3) ∈ gd.sKept :=
      (GatherDims.mem_sKept _ _).mpr ⟨(show (2 : Fin 3) ∉ [(1 : Fin 3)] by decide), List.not_mem_nil⟩
    have ho : gd.offCoord (ix4 b w f c) 2 = c.val := by
      unfold GatherDims.offCoord
      rw [dif_pos hk]
      rfl
    rw [hs, ho]
    omega

/-! ## The reference's value -/

/-- The reference's result is the array of windows of its argument. -/
theorem value_eq (x : (⟨S128x4096x4, .f32⟩ : BufTy).Contents (Elt Ideal)) :
    val_main_v13 (F := Ideal) x = Cert.Unfold.windows x := by
  funext j
  obtain ⟨b, w, f, c, rfl⟩ : ∃ (b : Fin 128) (w : Fin 4065) (f : Fin 32) (c : Fin 4), j = ix4 b w f c :=
    ⟨j 0, j 1, j 2, j 3, eq_ix4 j⟩
  unfold val_main_v13
  rw [Cert.Unfold.windows_apply]
  refine (gather_apply x _ b w f c).trans ?_
  congr 1
  funext e
  match e with
  | ⟨0, _⟩ => rfl
  | ⟨1, _⟩ =>
    refine Fin.ext ?_
    show min (val_main_v12 (F := Ideal) (ix3 w f (0 : Fin 1))).toInt.toNat 4095 = w.val + f.val
    rw [start_word, start_word_toNat]
    have := w.isLt; have := f.isLt; omega
  | ⟨2, _⟩ => rfl

end Cert.Unfold.Ref

end
-- ==== Proof.Stack.lean ====
/-
  One store of the kernel body, read at an index.

  The body holds a strip `v` of shape [64, 4, 159] (batch tile, channel, 128 + 31 consecutive positions). For each tap
  `f` it takes, for every channel `c`, the slice `v[:, c, f : f + 128]`, drops the unit channel axis, appends a unit
  axis, and concatenates the four channels along that new minor axis: a [64, 128, 4] array whose entry `[b, w, c]` is
  `v[b, c, f + w]`.
-/
import proofs.«119354_j34222299414942_1_alg».proof.KernelIdeal
import Idealize.ShloMosaic.Lib.ValueIdx
import Idealize.ShloMosaic.Lib.Pipeline.Value

noncomputable section

namespace Cert.Unfold.Body

open Idealize.ShloMosaic Idealize.ShloMosaic.ValueIdx Cert.KernelIdeal

variable {α : Type}

/-- One channel's slice with its unit axis moved to the end: entry `[b, w, 0]` is `v[b, c, f + w]`. -/
theorem strip_apply (v : S64x4x159.Idx → α) (c f : Nat) (hs : S64x4x159.Slices ![0, c, f] S64x1x128)
    (h1 : S64x1x128.ShapeCasts S64x128) (h2 : S64x128.ShapeCasts S64x128x1)
    (b : Fin 64) (w : Fin 128) (k : S64x4x159.Idx)
    (hk0 : (k 0).val = b.val) (hk1 : (k 1).val = c) (hk2 : (k 2).val = f + w.val) :
    shapeCast S64x128x1 (shapeCast S64x128 (extractStridedSlice S64x1x128 ![0, c, f] v hs) h1) h2 (ix3 b w (0 : Fin 1))
      = v k := by
  refine (shapeCast_apply _ h2 (ix3 b w (0 : Fin 1)) (ix2 b w) ?_).trans ?_
  · rw [Shape.rowMajor_val_two, Shape.rowMajor_val_three]
    show b.val * 128 + w.val = (b.val * 128 + w.val) * 1 + 0
    omega
  refine (shapeCast_apply _ h1 (ix2 b w) (ix3 b (0 : Fin 1) w) ?_).trans ?_
  · rw [Shape.rowMajor_val_three, Shape.rowMajor_val_two]
    show (b.val * 1 + 0) * 128 + w.val = b.val * 128 + w.val
    omega
  exact extractStridedSlice_apply _ v hs _ k (fun a => match a with
    | ⟨0, _⟩ => by show (k 0).val = 0 + b.val; omega
    | ⟨1, _⟩ => by show (k 1).val = c + 0; omega
    | ⟨2, _⟩ => by show (k 2).val = f + w.val; omega)

/-- Four arrays with a unit minor axis concatenated along it: entry `[b, w, c]` is entry `[b, w, 0]` of the `c`-th. -/
theorem concat4_apply (p0 p1 p2 p3 : S64x128x1.Idx → α)
    (hcat : Shape.Concatenates [S64x128x1, S64x128x1, S64x128x1, S64x128x1] S64x128x4 2)
    (b : Fin 64) (w : Fin 128) (c : Fin 4) :
    concatenate S64x128x4 2 [⟨S64x128x1, p0⟩, ⟨S64x128x1, p1⟩, ⟨S64x128x1, p2⟩, ⟨S64x128x1, p3⟩] hcat (ix3 b w c)
      = (match c with | ⟨0, _⟩ => p0 | ⟨1, _⟩ => p1 | ⟨2, _⟩ => p2 | ⟨3, _⟩ => p3) (ix3 b w (0 : Fin 1)) := by
  have hi : ∀ e : Fin S64x128x1.rank, e.cast (rfl : S64x128x1.rank = S64x128x4.rank) ≠ (2 : Fin 3) →
      ((ix3 b w (0 : Fin 1) : S64x128x1.Idx) e).val = ((ix3 b w c : S64x128x4.Idx) (e.cast rfl)).val := fun e he =>
    match e, he with
    | ⟨0, _⟩, _ => rfl
    | ⟨1, _⟩, _ => rfl
    | ⟨2, _⟩, he => absurd rfl he
  match c with
  | ⟨0, _⟩ =>
    exact concatenate_apply_piece (t := S64x128x4) 2 [⟨S64x128x1, p0⟩, ⟨S64x128x1, p1⟩, ⟨S64x128x1, p2⟩, ⟨S64x128x1, p3⟩]
      hcat _ 0 (by simp) S64x128x1 p0 rfl rfl 0 rfl (ix3 b w (0 : Fin 1)) hi rfl
  | ⟨1, _⟩ =>
    exact concatenate_apply_piece (t := S64x128x4) 2 [⟨S64x128x1, p0⟩, ⟨S64x128x1, p1⟩, ⟨S64x128x1, p2⟩, ⟨S64x128x1, p3⟩]
      hcat _ 1 (by simp) S64x128x1 p1 rfl rfl 1 rfl (ix3 b w (0 : Fin 1)) hi rfl
  | ⟨2, _⟩ =>
    exact concatenate_apply_piece (t := S64x128x4) 2 [⟨S64x128x1, p0⟩, ⟨S64x128x1, p1⟩, ⟨S64x128x1, p2⟩, ⟨S64x128x1, p3⟩]
      hcat _ 2 (by simp) S64x128x1 p2 rfl rfl 2 rfl (ix3 b w (0 : Fin 1)) hi rfl
  | ⟨3, _⟩ =>
    exact concatenate_apply_piece (t := S64x128x4) 2 [⟨S64x128x1, p0⟩, ⟨S64x128x1, p1⟩, ⟨S64x128x1, p2⟩, ⟨S64x128x1, p3⟩]
      hcat _ 3 (by simp) S64x128x1 p3 rfl rfl 3 rfl (ix3 b w (0 : Fin 1)) hi rfl

/-- The four channels stacked on the minor axis: entry `[b, w, c]` is `v[b, c, f + w]`. -/
theorem stack_apply (v : S64x4x159.Idx → α) (f : Nat)
    (hs0 : S64x4x159.Slices ![0, 0, f] S64x1x128) (hs1 : S64x4x159.Slices ![0, 1, f] S64x1x128)
    (hs2 : S64x4x159.Slices ![0, 2, f] S64x1x128) (hs3 : S64x4x159.Slices ![0, 3, f] S64x1x128)
    (h1 : S64x1x128.ShapeCasts S64x128) (h2 : S64x128.ShapeCasts S64x128x1)
    (hcat : Shape.Concatenates [S64x128x1, S64x128x1, S64x128x1, S64x128x1] S64x128x4 2)
    (b : Fin 64) (w : Fin 128) (c : Fin 4) (k : S64x4x159.Idx)
    (hk0 : (k 0).val = b.val) (hk1 : (k 1).val = c.val) (hk2 : (k 2).val = f + w.val) :
    concatenate S64x128x4 2
      [⟨S64x128x1, shapeCast S64x128x1 (shapeCast S64x128 (extractStridedSlice S64x1x128 ![0, 0, f] v hs0) h1) h2⟩,
       ⟨S64x128x1, shapeCast S64x128x1 (shapeCast S64x128 (extractStridedSlice S64x1x128 ![0, 1, f] v hs1) h1) h2⟩,
       ⟨S64x128x1, shapeCast S64x128x1 (shapeCast S64x128 (extractStridedSlice S64x1x128 ![0, 2, f] v hs2) h1) h2⟩,
       ⟨S64x128x1, shapeCast S64x128x1 (shapeCast S64x128 (extractStridedSlice S64x1x128 ![0, 3, f] v hs3) h1) h2⟩]
      hcat (ix3 b w c) = v k := by
  rw [concat4_apply]
  match c, hk1 with
  | ⟨0, _⟩, hk1 => exact strip_apply v 0 f hs0 h1 h2 b w k hk0 hk1 hk2
  | ⟨1, _⟩, hk1 => exact strip_apply v 1 f hs1 h1 h2 b w k hk0 hk1 hk2
  | ⟨2, _⟩, hk1 => exact strip_apply v 2 f hs2 h1 h2 b w k hk0 hk1 hk2
  | ⟨3, _⟩, hk1 => exact strip_apply v 3 f hs3 h1 h2 b w k hk0 hk1 hk2

end Cert.Unfold.Body

end
-- ==== Proof.Block.lean ====
/-
  What one grid point's body leaves in the output block.

  The body loads the strip `x0[:, :, off : off + 159]` of its input block `x0 : [64, 4, 4127]` (`off = 128 · wi` for window
  tile `wi`) and, for each tap `f < 32`, stores the stack of the four channels' slices `[f, f + 128)` into lanes
  `[4f, 4f + 4)` of the [64, 128, 128] output block. So lane `l` of row `w` holds channel `l % 4` of tap `l / 4`:
  entry `[b, w, l]` of the block is `x0[b, l % 4, off + l / 4 + w]`. The 32 stores tile the 128 lanes, so every entry is
  written exactly once.
-/
import proofs.«119354_j34222299414942_1_alg».proof.Proof.Gen.KernelIdeal.Frame
import proofs.«119354_j34222299414942_1_alg».proof.Proof.Stack
import Idealize.ShloMosaic.Lib.ValueIdx
import Idealize.ShloMosaic.Lib.Pipeline.Value

set_option maxRecDepth 16384

noncomputable section

namespace Cert.Unfold.Body

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]

/-- Entry `[b, w, l]` of the output block: channel `l % 4`, position `off + l / 4 + w` of the input block. -/
def blockVal {α : Type} (x0 : S64x4x4127.Idx → α) (off : Nat) (hoff : off + 159 ≤ 4127) : S64x128x128.Idx → α :=
  fun y => x0 (ix3 (n0 := 64) (n1 := 4) (n2 := 4127) (y 0) ⟨(y 2).val % 4, Nat.mod_lt _ (by decide)⟩
    ⟨off + (y 2).val / 4 + (y 1).val, by
      have h1 : (y 1).val < 128 := (y 1).isLt
      have h2 : (y 2).val < 128 := (y 2).isLt
      omega⟩)

/-- One store's payload agrees with `blockVal` on the store's rectangle: tap `f`, lanes `[g, g + 4)` with `g = 4f`. -/
theorem piece_ok {Val : EltTy → Type} {e : EltTy} (x0 : S64x4x4127.Idx → Val e) (off : Fin 3 → Nat) (hoff0 : off 0 = 0) (hoff1 : off 1 = 0)
    (inb : ∀ a, off a + S64x4x159.size a ≤ S64x4x4127.size a) (hb : off 2 + 159 ≤ 4127)
    (f g : Nat) (hg : g = 4 * f) (hf : f < 32)
    (hs0 : S64x4x159.Slices ![0, 0, f] S64x1x128) (hs1 : S64x4x159.Slices ![0, 1, f] S64x1x128)
    (hs2 : S64x4x159.Slices ![0, 2, f] S64x1x128) (hs3 : S64x4x159.Slices ![0, 3, f] S64x1x128)
    (h0 : S64x4x159.ShapeCasts S64x4x159) (h1 : S64x1x128.ShapeCasts S64x128) (h2 : S64x128.ShapeCasts S64x128x1)
    (hcat : Shape.Concatenates [S64x128x1, S64x128x1, S64x128x1, S64x128x1] S64x128x4 2)
    (inbp : ∀ a, (![0, 0, g] : Fin 3 → Nat) a + S64x128x4.size a ≤ S64x128x128.size a)
    (x : S64x128x4.Idx) :
    concatenate S64x128x4 2
      [⟨S64x128x1, shapeCast S64x128x1 (shapeCast S64x128 (extractStridedSlice S64x1x128 ![0, 0, f]
          (shapeCast S64x4x159 (View.ld x0 (Rect.unit off S64x4x159.size inb)) h0) hs0) h1) h2⟩,
       ⟨S64x128x1, shapeCast S64x128x1 (shapeCast S64x128 (extractStridedSlice S64x1x128 ![0, 1, f]
          (shapeCast S64x4x159 (View.ld x0 (Rect.unit off S64x4x159.size inb)) h0) hs1) h1) h2⟩,
       ⟨S64x128x1, shapeCast S64x128x1 (shapeCast S64x128 (extractStridedSlice S64x1x128 ![0, 2, f]
          (shapeCast S64x4x159 (View.ld x0 (Rect.unit off S64x4x159.size inb)) h0) hs2) h1) h2⟩,
       ⟨S64x128x1, shapeCast S64x128x1 (shapeCast S64x128 (extractStridedSlice S64x1x128 ![0, 3, f]
          (shapeCast S64x4x159 (View.ld x0 (Rect.unit off S64x4x159.size inb)) h0) hs3) h1) h2⟩]
      hcat x
      = blockVal x0 (off 2) hb ((Rect.unit (s := S64x128x128) ![0, 0, g] S64x128x4.size inbp).emb x) := by
  obtain ⟨b, w, c, rfl⟩ : ∃ (b : Fin 64) (w : Fin 128) (c : Fin 4), x = ix3 b w c := ⟨x 0, x 1, x 2, eq_ix3 x⟩
  have hb' : b.val < 64 := b.isLt
  have hw : w.val < 128 := w.isLt
  have hc : c.val < 4 := c.isLt
  refine (stack_apply _ f hs0 hs1 hs2 hs3 h1 h2 hcat b w c
    (ix3 (n0 := 64) (n1 := 4) (n2 := 159) b c ⟨f + w.val, by omega⟩) rfl rfl rfl).trans ?_
  refine (congrFun (shapeCast_self (s := S64x4x159) (View.ld x0 (Rect.unit off S64x4x159.size inb)) h0) _).trans ?_
  show x0 ((Rect.unit (s := S64x4x4127) off S64x4x159.size inb).emb (ix3 (n0 := 64) (n1 := 4) (n2 := 159) b c ⟨f + w.val, by omega⟩)) = _
  unfold blockVal
  congr 1
  funext a
  refine Fin.ext ?_
  match a with
  | ⟨0, _⟩ => show off 0 + 1 * b.val = 0 + 1 * b.val; omega
  | ⟨1, _⟩ => show off 1 + 1 * c.val = (g + 1 * c.val) % 4; omega
  | ⟨2, _⟩ => show off 2 + 1 * (f + w.val) = off 2 + (g + 1 * c.val) / 4 + (0 + 1 * w.val); omega

/-- The strip's start: `0` on the batch and channel axes. -/
theorem off1_0 (i : grid0.Coords) : k0_off1 i 0 = 0 := rfl
theorem off1_1 (i : grid0.Coords) : k0_off1 i 1 = 0 := rfl
/-- The strip ends inside the input block. -/
theorem off1_2_le (i : grid0.Coords) : k0_off1 i 2 + 159 ≤ 4127 := Facts₀.k0_off1_inb i 2

/-- What the body leaves in the output block, in closed form. -/
theorem out_eq (c : Dev nD) (i : grid0.Coords) (arg2 : Memref sig .tc .vmem S64x4x4127 .f32) (harg2 : arg2.IsWhole)
    (arg3 : Memref sig .tc .vmem S64x128x128 .f32) (harg3 : arg3.IsWhole) (x0 : Vec F S64x4x4127 .f32) :
    out0_A_1 c i arg2 harg2 arg3 harg3 x0 = blockVal x0 (k0_off1 i 2) (off1_2_le i) := by
  funext y
  unfold out0_A_1
  rw [View.read_writes_eq_canon _ _ _ (cover0_A_1 c i arg2 harg2 arg3 harg3 x0)]
  refine View.canon_apply_of_pieces (blockVal x0 (k0_off1 i 2) (off1_2_le i)) _ ?_ y
    (cover0_A_1 c i arg2 harg2 arg3 harg3 x0 y)
  unfold kernelRun0_A
  dsimp only
  sl_unfold_words
  simp only [View.readAt_eq_ld, harg2.read_unread]
  refine List.forall_iff_forall_mem.mp ?_
  simp only [List.Forall, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  repeat' apply And.intro
  all_goals
    intro x
    exact piece_ok x0 _ (by rfl) (by rfl) _ _ _ _ (by rfl) (by decide) _ _ _ _ _ _ _ _ _ x

end Cert.Unfold.Body

end
-- ==== Proof.Region.lean ====
/-
  The pallas_call's output array after the run.

  The region's input is `xp = pad (transpose x)` of shape [128, 4, 4127]: `xp[b, c, s] = x[b, s, c]` for `s < 4096` (the
  31 padded positions are never read below). Its output `o` has shape [128, 4065, 128], written in blocks of
  [64, 128, 128] on a 2 × 32 grid; the last block along the window axis overhangs the array (32 · 128 = 4096 > 4065)
  and only its 97 rows inside the array are written back. Point `(bi, wi)` writes back rows of
  `o[b, w, l] = xp[b, l % 4, w + l / 4] = x[b, w + l / 4, l % 4]`, and `w + l / 4 ≤ 4064 + 31 < 4096`. The blocks cover the
  array, so the whole array ends holding that function of `x`.
-/
import proofs.«119354_j34222299414942_1_alg».proof.Proof.Gen.KernelIdeal.Frame
import proofs.«119354_j34222299414942_1_alg».proof.Proof.Block
import Idealize.ShloMosaic.Lib.ValueIdx
import Idealize.ShloMosaic.Lib.Pipeline.Value
import Idealize.ShloMosaic.Lib.KernelVsHost
import Idealize.ShloMosaic.Lib.StableHlo.Run

set_option maxRecDepth 16384

noncomputable section

namespace Cert.Unfold.Region

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-- The argument array on core `c`. -/
abbrev xarr (c : Dev nD) : S128x4096x4.Idx → Elt F .f32 := m ((c : Thread nD τ).loc main_arg0)

/-! ## The region's input -/

/-- The region finds its input array at the transposed argument, padded on the position axis. -/
theorem xpad_eq (c : Dev nD) : (V m c main_v1 : S128x4x4127.Idx → Elt F .f32)
    = pad S128x4x4127 ![0, 0, 0] ![0, 0, 31] ![0, 0, 0]
        (transpose S128x4x4096 [0, 2, 1] (xarr m c) Facts₀.transposes_S128x4096x4_S128x4x4096_0_2_1)
        (sitofp (F := F) .f32 (constantI S_ 32 0#32)) Facts₀.pads_S128x4x4096_S128x4x4127_000_000_0310 Facts₀.h_S_ := by
  dsimp only [V, V0]
  simp only [hostOps0, hostOps0_1, List.flatten_cons, List.flatten_nil, List.append_nil, List.cons_append,
    List.nil_append]
  after_results
  rfl

/-- Below the padding it is the argument with the last two axes exchanged. -/
theorem xpad_apply (c : Dev nD) (k : S128x4x4127.Idx) (hk : (k 2).val < 4096) :
    V m c main_v1 k = xarr m c (ix3 (n0 := 128) (n1 := 4096) (n2 := 4) ⟨(k 0).val, (k 0).isLt⟩ ⟨(k 2).val, hk⟩
      ⟨(k 1).val, (k 1).isLt⟩) := by
  rw [xpad_eq]
  refine (pad_apply_of_inside _ _ _ _ _ _ _ k
    (ix3 (n0 := 128) (n1 := 4) (n2 := 4096) ⟨(k 0).val, (k 0).isLt⟩ ⟨(k 1).val, (k 1).isLt⟩ ⟨(k 2).val, hk⟩)
    (fun a => match a with
      | ⟨0, _⟩ => by show (k 0).val = 0 + (k 0).val * (0 + 1); omega
      | ⟨1, _⟩ => by show (k 1).val = 0 + (k 1).val * (0 + 1); omega
      | ⟨2, _⟩ => by show (k 2).val = 0 + (k 2).val * (0 + 1); omega)).trans ?_
  exact transpose_apply _ _ _ _ _ (fun b => match b with | ⟨0, _⟩ => rfl | ⟨1, _⟩ => rfl | ⟨2, _⟩ => rfl)

/-! ## The grid -/

/-- The printed index maps and the load's offset, decided over the 64 grid points: both windows move with the batch
    tile `t / 32`; the output window also with the window tile `t % 32`, where the body's strip starts. -/
theorem grid_facts : ∀ t : Fin cfg0.N,
    win0_0.index t (0 : Fin 3) = t.val / 32 ∧ win0_0.index t (1 : Fin 3) = 0 ∧ win0_0.index t (2 : Fin 3) = 0
    ∧ k0_off1 (grid0.coords t) 2 = t.val % 32 * 128
    ∧ win0_1.index t (0 : Fin 3) = t.val / 32 ∧ win0_1.index t (1 : Fin 3) = t.val % 32 ∧ win0_1.index t (2 : Fin 3) = 0 :=
  (by decide +kernel : ∀ t : Fin grid0.N, _)

/-- What the write-back at each point moves: whole blocks, but 97 rows of the last window tile. -/
theorem xsize_facts : ∀ t : Fin cfg0.N,
    win0_1.xsize (grid0.coords t) (0 : Fin 3) = 64
    ∧ win0_1.xsize (grid0.coords t) (1 : Fin 3) = (if t.val % 32 = 31 then 97 else 128)
    ∧ win0_1.xsize (grid0.coords t) (2 : Fin 3) = 128 :=
  (by decide +kernel : ∀ t : Fin grid0.N, _)

/-! ## The output array -/

/-- Lane `l` of window `w` holds channel `l % 4` of position `w + l / 4`. -/
def lanes {α : Type} (x : S128x4096x4.Idx → α) : S128x4065x128.Idx → α := fun i =>
  x (ix3 (n0 := 128) (n1 := 4096) (n2 := 4) ⟨(i 0).val, (i 0).isLt⟩
    ⟨(i 1).val + (i 2).val / 4, by
      have h1 : (i 1).val < 4065 := (i 1).isLt
      have h2 : (i 2).val < 128 := (i 2).isLt
      omega⟩
    ⟨(i 2).val % 4, Nat.mod_lt _ (by decide)⟩)

/-- The position a block entry reads lies below the padding. -/
theorem arith_pos (T J1 J2 : Nat) (hT : T < 64) (h1 : J1 < (if T % 32 = 31 then 97 else 128)) (h2 : J2 < 128) :
    0 * 4127 + 1 * (T % 32 * 128 + J2 / 4 + J1) < 4096 := by
  split at h1 <;> omega

/-- The position read through the input block is the one `lanes` names. -/
theorem arith_mid (T J1 J2 : Nat) :
    0 * 4127 + 1 * (T % 32 * 128 + J2 / 4 + J1) = T % 32 * 128 + 1 * J1 + (0 * 128 + 1 * J2) / 4 := by
  omega

/-- So is the channel. -/
theorem arith_chan (J2 : Nat) : 0 * 4 + 1 * (J2 % 4) = (0 * 128 + 1 * J2) % 4 := by
  omega

/-- WHAT POINT `t` WRITES BACK is its block of `lanes x`. -/
theorem flushed_eq (c : Dev nD) (t : Fin cfg0.N) :
    (dats m 0 c).flushed 1 t = ((cfg0.win 1).blk t).view.read (Elt F) (lanes (xarr m c)) := by
  show (cfg0.win 1).cut (grid0.coords t) ((dats m 0 c).after 1 t) = _
  rw [after0_1]
  unfold outsAt0
  rw [Body.out_eq c (grid0.coords t) (ms0_0 t) (hs0_0 t) (ms0_1 t) (hs0_1 t) (iblk m c 0 t)]
  obtain ⟨e0, e1, e2, e3, e4, e5, e6⟩ := grid_facts t
  obtain ⟨x0, x1, x2⟩ := xsize_facts t
  have ht : t.val < 64 := lt_of_lt_of_eq t.isLt N_0
  funext j
  have hj0 : (j 0).val < 64 := lt_of_lt_of_eq (j 0).isLt x0
  have hj1 : (j 1).val < (if t.val % 32 = 31 then 97 else 128) := lt_of_lt_of_eq (j 1).isLt x1
  have hj2 : (j 2).val < 128 := lt_of_lt_of_eq (j 2).isLt x2
  show Body.blockVal (iblk m c 0 t) (k0_off1 (grid0.coords t) 2) (Body.off1_2_le (grid0.coords t))
      (win0_1.xinj (grid0.coords t) j) = lanes (xarr m c) (((cfg0.win 1).blk t).view.emb j)
  unfold Body.blockVal iblk
  rw [View.read_apply]
  refine (xpad_apply m c _ ?_).trans ?_
  · show win0_0.index t (2 : Fin 3) * 4127 + 1 * (k0_off1 (grid0.coords t) 2 + (j 2).val / 4 + (j 1).val) < 4096
    rw [e2, e3]
    exact arith_pos _ _ _ ht hj1 hj2
  unfold lanes
  congr 1
  funext a
  refine Fin.ext ?_
  match a with
  | ⟨0, _⟩ =>
    show win0_0.index t (0 : Fin 3) * 64 + 1 * (j 0).val = win0_1.index t (0 : Fin 3) * 64 + 1 * (j 0).val
    rw [e0, e4]
  | ⟨1, _⟩ =>
    show win0_0.index t (2 : Fin 3) * 4127 + 1 * (k0_off1 (grid0.coords t) 2 + (j 2).val / 4 + (j 1).val)
      = win0_1.index t (1 : Fin 3) * 128 + 1 * (j 1).val + (win0_1.index t (2 : Fin 3) * 128 + 1 * (j 2).val) / 4
    rw [e2, e3, e5, e6]
    exact arith_mid _ _ _
  | ⟨2, _⟩ =>
    show win0_0.index t (1 : Fin 3) * 4 + 1 * ((j 2).val % 4) = (win0_1.index t (2 : Fin 3) * 128 + 1 * (j 2).val) % 4
    rw [e1, e6]
    exact arith_chan _

/-- An index of the output array is in point `t`'s block iff each coordinate is in the range the write-back moves. -/
theorem mem_blk (t : Fin cfg0.N) (i : S128x4065x128.Idx) :
    i ∈ ((cfg0.win 1).blk t).view.set ↔ ∀ a : Fin 3, win0_1.index t a * S64x128x128.size a ≤ (i a).val
      ∧ (i a).val < win0_1.index t a * S64x128x128.size a + win0_1.xsize (grid0.coords t) a := by
  show i ∈ ((View.whole main_v2).slice (win0_1.rect t)).set ↔ _
  rw [View.set_slice_whole, Rect.mem_set_unit]
  exact Iff.rfl

/-- Every index of the output array is written back by the point of its batch tile and window tile. -/
theorem cover (i : S128x4065x128.Idx) :
    ∃ t : Fin cfg0.N, (cfg0.win 1).flush t = true ∧ i ∈ ((cfg0.win 1).blk t).view.set := by
  have h0 : (i 0).val < 128 := (i 0).isLt
  have h1 : (i 1).val < 4065 := (i 1).isLt
  have h2 : (i 2).val < 128 := (i 2).isLt
  have hN : cfg0.N = 64 := N_0
  have hlt : (i 0).val / 64 * 32 + (i 1).val / 128 < cfg0.N := by rw [hN]; omega
  obtain ⟨e0, e1, e2, e3, e4, e5, e6⟩ := grid_facts ⟨_, hlt⟩
  obtain ⟨x0, x1, x2⟩ := xsize_facts ⟨_, hlt⟩
  refine ⟨⟨_, hlt⟩, flush0_1 _, (mem_blk _ i).mpr fun a => ?_⟩
  match a with
  | ⟨0, _⟩ =>
    show win0_1.index ⟨_, hlt⟩ (0 : Fin 3) * 64 ≤ (i 0).val
      ∧ (i 0).val < win0_1.index ⟨_, hlt⟩ (0 : Fin 3) * 64 + win0_1.xsize (grid0.coords ⟨_, hlt⟩) (0 : Fin 3)
    rw [e4, x0]
    show ((i 0).val / 64 * 32 + (i 1).val / 128) / 32 * 64 ≤ (i 0).val
      ∧ (i 0).val < ((i 0).val / 64 * 32 + (i 1).val / 128) / 32 * 64 + 64
    omega
  | ⟨1, _⟩ =>
    show win0_1.index ⟨_, hlt⟩ (1 : Fin 3) * 128 ≤ (i 1).val
      ∧ (i 1).val < win0_1.index ⟨_, hlt⟩ (1 : Fin 3) * 128 + win0_1.xsize (grid0.coords ⟨_, hlt⟩) (1 : Fin 3)
    rw [e5, x1]
    show ((i 0).val / 64 * 32 + (i 1).val / 128) % 32 * 128 ≤ (i 1).val
      ∧ (i 1).val < ((i 0).val / 64 * 32 + (i 1).val / 128) % 32 * 128
          + (if ((i 0).val / 64 * 32 + (i 1).val / 128) % 32 = 31 then 97 else 128)
    split <;> omega
  | ⟨2, _⟩ =>
    show win0_1.index ⟨_, hlt⟩ (2 : Fin 3) * 128 ≤ (i 2).val
      ∧ (i 2).val < win0_1.index ⟨_, hlt⟩ (2 : Fin 3) * 128 + win0_1.xsize (grid0.coords ⟨_, hlt⟩) (2 : Fin 3)
    rw [e6, x2]
    omega

/-- THE OUTPUT ARRAY after the run. -/
theorem final (c : Dev nD) : (dats m 0 c).arrAt 1 cfg0.N = lanes (xarr m c) :=
  (dats m 0 c).arrAt_eq_of_cover 1 (lanes (xarr m c)) (fun t _ => flushed_eq m c t) cover

end Cert.Unfold.Region

end
-- ==== Proof.Result.lean ====
/-
  The kernel program's result.

  After the region, @main reshapes its output `o : [128, 4065, 128]` to [128, 4065, 32, 4]: lane `l = 4 f + c` becomes
  (tap `f`, channel `c`). With `o[b, w, l] = x[b, w + l / 4, l % 4]` the result is `x[b, w + f, c]`: the array of
  sliding windows of the argument.
-/
import proofs.«119354_j34222299414942_1_alg».proof.Proof.Gen.KernelIdeal.Frame
import proofs.«119354_j34222299414942_1_alg».proof.Proof.Region
import proofs.«119354_j34222299414942_1_alg».proof.Proof.Spec
import Idealize.ShloMosaic.Lib.ValueIdx
import Idealize.ShloMosaic.Lib.Pipeline.Value
import Idealize.ShloMosaic.Lib.StableHlo.Run

set_option maxRecDepth 16384

noncomputable section

namespace Cert.Unfold.Kernel

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.Unfold.Region

variable {F : FTy → Type} [FloatOps F]

variable (m : (ℓ : Loc nD τ sig) → Buf (Elt F) ℓ) (ρ : Dev nD → PrngReg)

/-- Splitting the lane axis into (tap, channel) turns `lanes x` into the windows of `x`. -/
theorem lanes_reshape {α : Type} (x : S128x4096x4.Idx → α) (h : S128x4065x128.ShapeCasts S128x4065x32x4) :
    shapeCast S128x4065x32x4 (lanes x) h = Cert.Unfold.windows x := by
  funext j
  obtain ⟨b, w, f, c, rfl⟩ : ∃ (b : Fin 128) (w : Fin 4065) (f : Fin 32) (c : Fin 4), j = ix4 b w f c :=
    ⟨j 0, j 1, j 2, j 3, eq_ix4 j⟩
  have hb : b.val < 128 := b.isLt
  have hw : w.val < 4065 := w.isLt
  have hf : f.val < 32 := f.isLt
  have hc : c.val < 4 := c.isLt
  refine (shapeCast_apply _ h (ix4 b w f c)
    (ix3 (n0 := 128) (n1 := 4065) (n2 := 128) b w ⟨4 * f.val + c.val, by omega⟩) ?_).trans ?_
  · rw [Shape.rowMajor_val_three, Shape.rowMajor_val_four]
    show (b.val * 4065 + w.val) * 128 + (4 * f.val + c.val) = ((b.val * 4065 + w.val) * 32 + f.val) * 4 + c.val
    omega
  rw [Cert.Unfold.windows_apply]
  unfold lanes
  congr 1
  funext a
  refine Fin.ext ?_
  match a with
  | ⟨0, _⟩ => rfl
  | ⟨1, _⟩ => show w.val + (4 * f.val + c.val) / 4 = w.val + f.val; omega
  | ⟨2, _⟩ => show (4 * f.val + c.val) % 4 = c.val; omega

/-- The program's result buffer after the lines that follow the region. -/
theorem result_eq (c : Dev nD) :
    Pipeline.afterTail₀ cfgs (dats m) 0 (V0 m) [hostOps1] c main_v3 = Cert.Unfold.windows (xarr m c) := by
  unfold Pipeline.afterTail₀
  show StableHlo.after hostOps1 _ (Proc.devRef .tc main_v3) = _
  after_results
  have hW : Pipeline.withArrays (cfgs 0).spec c (V0 m c) (fun w => (dats m 0 c).arrAt w (cfgs 0).N)
      (Proc.devRef .tc main_v2) = lanes (xarr m c) :=
    (Pipeline.withArrays_arr spec0 launch0.win.arr_inj c (V0 m c) (fun w => (dats m 0 c).arrAt w cfg0.N) 1).trans
      (final m c)
  funext i
  show shapeCast S128x4065x32x4 (Pipeline.withArrays (cfgs 0).spec c (V0 m c)
      (fun w => (dats m 0 c).arrAt w (cfgs 0).N) (Proc.devRef .tc main_v2))
    Facts₀.shapeCasts_S128x4065x128_S128x4065x32x4 i = _
  exact (congrFun (congrArg (fun v => shapeCast S128x4065x32x4 v Facts₀.shapeCasts_S128x4065x128_S128x4065x32x4) hW) i).trans
    (congrFun (lanes_reshape (xarr m c) Facts₀.shapeCasts_S128x4065x128_S128x4065x32x4) i)

/-- THE KERNEL PROGRAM'S RUN: every weakly fair execution terminates with the result buffer at the windows of the
    argument and the argument unchanged. -/
theorem run : θ_run defs (onTc (τ := τ) (main (F := F))) ⟨m, fun _ => 0, ρ⟩ fun r => ∀ c : Dev nD,
      r.2.mem ((c.tc : Thread nD τ).loc main_v3) = Cert.Unfold.windows (xarr m c)
      ∧ r.2.mem ((c.tc : Thread nD τ).loc main_arg0) = m ((c.tc : Thread nD τ).loc main_arg0) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c)⟩)
    (run_main m ρ)

end Cert.Unfold.Kernel

end
-- ==== Proof.lean ====
/-
  A sliding-window unfold on the sequence axis, kernel against reference, over the extended reals.

  For `x : [128, 4096, 4]` (batch, position, channel) both programs return `y : [128, 4065, 32, 4]` with
  `y[b, w, f, c] = x[b, w + f, c]`: window `w` of width 32 holds positions `w … w + 31`, and `w + f ≤ 4095`.

  The kernel program transposes `x` to [128, 4, 4096], pads the position axis by 31 zeros, and runs a pallas_call on a
  2 × 32 grid: each point loads a strip of 128 + 31 positions of its batch tile and stores, tap by tap, the four
  channels' shifted slices side by side into a lane-dense [64, 128, 128] block (lane 4 f + c = tap f, channel c); the
  output [128, 4065, 128] is reshaped to [128, 4065, 32, 4]. The padded positions are never read, and the last block
  on the window axis overhangs the array: only its rows inside are written back. The reference computes the table of
  positions `w + f` and gathers along the position axis; no index is negative or out of range, so jnp's wrap and the
  gather's clamp are idle.

  No arithmetic is done on the entries, so the two results are equal entry by entry for arbitrary extended reals:
  the precondition (finite inputs) is not used. The ideal pass rewrote nothing, so `preserves` is `True`.

  Modules: Spec (the windows), Stack (one store of the body at an index), Block (what the body leaves in the output
  block), Region (the pallas_call's output array), Result (the kernel program's result and run), RefValue (the
  reference's result).
-/
import proofs.«119354_j34222299414942_1_alg».proof.Defs
import proofs.«119354_j34222299414942_1_alg».proof.Proof.Gen.Kernel
import proofs.«119354_j34222299414942_1_alg».proof.Proof.Gen.Kernel.Skeleton
import proofs.«119354_j34222299414942_1_alg».proof.Proof.Gen.Kernel.Launch
import proofs.«119354_j34222299414942_1_alg».proof.Proof.Gen.Kernel.Points
import proofs.«119354_j34222299414942_1_alg».proof.Proof.Gen.Kernel.Frame
import proofs.«119354_j34222299414942_1_alg».proof.Proof.Gen.KernelIdeal
import proofs.«119354_j34222299414942_1_alg».proof.Proof.Gen.KernelIdeal.Skeleton
import proofs.«119354_j34222299414942_1_alg».proof.Proof.Gen.KernelIdeal.Launch
import proofs.«119354_j34222299414942_1_alg».proof.Proof.Gen.KernelIdeal.Points
import proofs.«119354_j34222299414942_1_alg».proof.Proof.Gen.KernelIdeal.Frame
import proofs.«119354_j34222299414942_1_alg».proof.Proof.Gen.ReferenceIdeal
import proofs.«119354_j34222299414942_1_alg».proof.Proof.Gen.ReferenceIdeal.Run
import proofs.«119354_j34222299414942_1_alg».proof.Proof.Gen.ReferenceIdeal.Read
import proofs.«119354_j34222299414942_1_alg».proof.Proof.Gen.Pre_finite_inputs
import proofs.«119354_j34222299414942_1_alg».proof.Proof.Spec
import proofs.«119354_j34222299414942_1_alg».proof.Proof.RefValue
import proofs.«119354_j34222299414942_1_alg».proof.Proof.Result
import Idealize.ShloMosaic.Adequacy
import Idealize.ShloMosaic.Init

noncomputable section

namespace Cert.Proof

open Idealize.ShloMosaic Idealize.ShloMosaic.TcCoe Idealize.SL.Sem

/-- The word-level kernel program runs and leaves its argument unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference program has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the windows of their (equal) arguments. -/
theorem algebraic : Cert.algebraic_KernelIdeal_ReferenceIdeal := by
  intro m ρ m' ρ' _ hagree
  refine ⟨fun c => Cert.Unfold.windows (Cert.Unfold.Region.xarr m c), Cert.Unfold.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Unfold.Ref.value_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
